-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024 .f32) (main_arg16 : FVec F S1024 .f32) (main_arg17 : FVec F S1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1x4096 : Shape := ⟨2, ![1, 4096]⟩
abbrev S1024x4096 : Shape := ⟨2, ![1024, 4096]⟩
abbrev S128x1024 : Shape := ⟨2, ![128, 1024]⟩
abbrev S128x4096 : Shape := ⟨2, ![128, 4096]⟩

abbrev nBuf : Space → Nat
  | .hbm => 31
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S1x4096, .f32⟩
  | .hbm, ⟨25, _⟩ => ⟨S1024x4096, .f32⟩
  | .hbm, ⟨26, _⟩ => ⟨S1024x4096, .bf16⟩
  | .hbm, ⟨27, _⟩ => ⟨S1024x4096, .f32⟩
  | .hbm, ⟨28, _⟩ => ⟨S1024x4096, .bf16⟩
  | .hbm, ⟨29, _⟩ => ⟨S8192x1024, .f32⟩
  | .hbm, ⟨30, _⟩ => ⟨S8192x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  shapeCasts_S4096_S1x4096 : S4096.ShapeCasts S1x4096
  transposes_S4096x1024_S1024x4096_1_0 : S4096x1024.Transposes [1, 0] S1024x4096
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  slices_S128x4096_o0_0_S128x1024 : S128x4096.Slices ![0, 0] S128x1024
  slices_S128x4096_o0_1024_S128x1024 : S128x4096.Slices ![0, 1024] S128x1024
  slices_S128x4096_o0_2048_S128x1024 : S128x4096.Slices ![0, 2048] S128x1024
  slices_S128x4096_o0_3072_S128x1024 : S128x4096.Slices ![0, 3072] S128x1024
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S8192x1024.size a
  hwx0_6 : ∀ i : grid0.Coords, EltTy.bits .f32 = 32 ∨ (Rect.block (s := S8192x1024) S128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S8192x1024.size a
  hwx0_7 : ∀ i : grid0.Coords, EltTy.bits .f32 = 32 ∨ (Rect.block (s := S8192x1024) S128x1024.size (cc0_transform_7 i) (hinb0_7 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S128x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S1024x4096, .f32⟩
  | .hbm, ⟨24, _⟩ => ⟨S8192x4096, .f32⟩
  | .hbm, ⟨25, _⟩ => ⟨S1024x4096, .f32⟩
  | .hbm, ⟨26, _⟩ => ⟨S8192x4096, .f32⟩
  | .hbm, ⟨27, _⟩ => ⟨S8192x4096, .f32⟩
  | .hbm, ⟨28, _⟩ => ⟨S4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.BitsCellData.lean ====
/-
  The LSTM cell as one pipelined region: what the region finds and what each grid point leaves.

  The program first builds, on the host, the stacked weights (the four gates' input and hidden
  matrices one above the other, 4096 x 1024 each), transposes them to 1024 x 4096, and the summed
  stacked bias as a 1 x 4096 row.  The region then walks the batch in 64 tiles of 128 rows.  At a
  tile the body reads the tile's rows of x, h and c, the whole of both weight matrices and the
  bias row, and writes the tile's rows of the new hidden state h' and the new cell state c':

      z   = x W_x + h W_h + b                (128 x 4096, the four gates side by side)
      c'  = sigmoid(z_f) * c + sigmoid(z_i) * tanh(z_g)
      h'  = sigmoid(z_o) * tanh(c')

  This module fixes, at any float instance, the arrays as the region finds them (the host
  operations applied to the launch memory), each window's block at a tile, the two stored values
  as functions of the blocks read, and the pipeline's proof data built from them.
-/
import proofs.«126319_j37099927503216_1_alg».proof.Proof.Gen.Kernel.Launch
import proofs.«126319_j37099927503216_1_alg».proof.Proof.Gen.Kernel.Skeleton
import proofs.«126319_j37099927503216_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

variable (m : (ℓ : Loc nD τ sig) → Buf (Elt F) ℓ)

/-! ## The arrays when the region is entered -/

/-- Core `c`'s buffers when the region is entered: the launch memory after the ten host operations
    (the stacking, the bias sum and its reshape, the two transposes and the two format changes). -/
abbrev V (c : Dev nD) (b : Ref sig .tc) : Buf (Elt F) ((c : Thread nD τ).loc b) :=
  StableHlo.after hostOps0 (fun b => m (c, b)) b

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What a tile's body stores -/

/-- The whole 128 x 1024 tile, the whole 1024 x 4096 weight block, the whole 1 x 4096 bias row. -/
abbrev rTile : Rect S128x1024 := Rect.unit (s := S128x1024) ![0, 0] S128x1024.size inb_S128x1024_S128x1024_0_0
abbrev rWeights : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-- The new hidden state's tile, from the blocks the body reads: its one store covers the buffer. -/
def outH (x h cp : Vec F S128x1024 .f32) (wx wh : Vec F S1024x4096 .bf16) (b : Vec F S1x4096 .f32) : Vec F S128x1024 .f32 :=
  View.canon [⟨rTile, k0_pay3 (View.ld x rTile) (View.ld h rTile) (View.ld wx rWeights) (View.ld wh rWeights) (View.ld b rBias) (View.ld cp rTile)⟩]

/-- The new cell state's tile, likewise. -/
def outC (x h cp : Vec F S128x1024 .f32) (wx wh : Vec F S1024x4096 .bf16) (b : Vec F S1x4096 .f32) : Vec F S128x1024 .f32 :=
  View.canon [⟨rTile, k0_pay2 (View.ld x rTile) (View.ld h rTile) (View.ld wx rWeights) (View.ld wh rWeights) (View.ld b rBias) (View.ld cp rTile)⟩]

/-- One store through the whole-tile rectangle covers the tile. -/
theorem coverTile (p0 : Vec F S128x1024 .f32) (y : S128x1024.Idx) :
    ∃ pc ∈ ([⟨rTile, p0⟩] : List (View.Piece (Elt F) S128x1024 .f32)), y ∈ pc.1.set :=
  View.cover_of_tiled [⟨rTile, p0⟩] S128x1024.size (by rfl) y

/-! ## The pipeline's proof data -/

/-- On core `c`: the arrays as the region finds them; after the body at tile `t` each input's buffer
    still at its block, the two outputs' at the stored values; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_x (c : Dev nD) (t : Fin cfg0.N) : (dats m 0 c).after 0 t = iblk m c 0 t := by dsimp only [dats]
theorem after_h (c : Dev nD) (t : Fin cfg0.N) : (dats m 0 c).after 1 t = iblk m c 1 t := by dsimp only [dats]
theorem after_c (c : Dev nD) (t : Fin cfg0.N) : (dats m 0 c).after 2 t = iblk m c 2 t := by dsimp only [dats]
theorem after_wx (c : Dev nD) (t : Fin cfg0.N) : (dats m 0 c).after 3 t = iblk m c 3 t := by dsimp only [dats]
theorem after_wh (c : Dev nD) (t : Fin cfg0.N) : (dats m 0 c).after 4 t = iblk m c 4 t := by dsimp only [dats]
theorem after_b (c : Dev nD) (t : Fin cfg0.N) : (dats m 0 c).after 5 t = iblk m c 5 t := by dsimp only [dats]
theorem after_hNew (c : Dev nD) (t : Fin cfg0.N) : (dats m 0 c).after 6 t
    = outH (iblk m c 0 t) (iblk m c 1 t) (iblk m c 2 t) (iblk m c 3 t) (iblk m c 4 t) (iblk m c 5 t) := by dsimp only [dats]
theorem after_cNew (c : Dev nD) (t : Fin cfg0.N) : (dats m 0 c).after 7 t
    = outC (iblk m c 0 t) (iblk m c 1 t) (iblk m c 2 t) (iblk m c 3 t) (iblk m c 4 t) (iblk m c 5 t) := by dsimp only [dats]

end Cert.Kernel.Cell

end
-- ==== Proof.BitsCellFrame.lean ====
/-
  The LSTM cell's region runs to its end and leaves every argument as launched.

  None of the ten host operations before the region writes an argument, so the region finds all
  nineteen as launched.  At every tile the body finds each of its six input buffers at that
  window's block (the three tiled inputs are fetched at every tile; the two weight matrices and the
  bias row are fetched once and their block index never moves), loads them whole, and stores the
  two results through whole-tile rectangles.  The pipeline's launch theorem then runs all 64 tiles:
  the arrays end at what the proof data computes, and every buffer no window stages ends as the
  region found it.
-/
import proofs.«126319_j37099927503216_1_alg».proof.Proof.BitsCellData

set_option maxRecDepth 16384

noncomputable section

namespace Cert.Kernel.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor

/-- @main is the ten host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the ten host results is found by the region as launched. -/
theorem V_kept (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9) :
    V m c b = m ((c : Thread nD τ).loc b) := by
  obtain ⟨h0, h1, h2, h3, h4, h5, h6, h7, h8, h9⟩ := hb
  refine StableHlo.after_of_forall_not_mem (b := Proc.devRef .tc b) _ _ (List.forall_iff_forall_mem.mp ?_)
  simp only [hostOps0, List.Forall, StableHlo.nary_writes, StableHlo.unary_writes, StableHlo.binary_writes,
    StableHlo.reshape_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9⟩

/-! ## Each input buffer at its block -/

/-- The input x's current staging buffer holds its block at every tile, fetched there or not: a body that
    leaves the block in place finds, where nothing was fetched, the block of the tile before, whose
    index is the same. -/
theorem before_x (c : Dev nD) (t : Fin cfg0.N) (d) : (dats m 0 c).before 0 t d = iblk m c 0 t :=
  ((dats m 0 c).before_in_eq_fetched 0 rfl (fun _ => rfl) (fun _ _ _ => rfl)
      (fun t => by rw [after_x]; unfold Dat.blockOf iblk; rw [A_eq]; try rfl) t d).trans
    (by unfold Dat.fetched Dat.blockOf iblk; rw [A_eq]; try rfl)
/-- The previous hidden state's current staging buffer holds its block at every tile, fetched there or not: a body that
    leaves the block in place finds, where nothing was fetched, the block of the tile before, whose
    index is the same. -/
theorem before_h (c : Dev nD) (t : Fin cfg0.N) (d) : (dats m 0 c).before 1 t d = iblk m c 1 t :=
  ((dats m 0 c).before_in_eq_fetched 1 rfl (fun _ => rfl) (fun _ _ _ => rfl)
      (fun t => by rw [after_h]; unfold Dat.blockOf iblk; rw [A_eq]; try rfl) t d).trans
    (by unfold Dat.fetched Dat.blockOf iblk; rw [A_eq]; try rfl)
/-- The previous cell state's current staging buffer holds its block at every tile, fetched there or not: a body that
    leaves the block in place finds, where nothing was fetched, the block of the tile before, whose
    index is the same. -/
theorem before_c (c : Dev nD) (t : Fin cfg0.N) (d) : (dats m 0 c).before 2 t d = iblk m c 2 t :=
  ((dats m 0 c).before_in_eq_fetched 2 rfl (fun _ => rfl) (fun _ _ _ => rfl)
      (fun t => by rw [after_c]; unfold Dat.blockOf iblk; rw [A_eq]; try rfl) t d).trans
    (by unfold Dat.fetched Dat.blockOf iblk; rw [A_eq]; try rfl)
/-- The input weights's current staging buffer holds its block at every tile, fetched there or not: a body that
    leaves the block in place finds, where nothing was fetched, the block of the tile before, whose
    index is the same. -/
theorem before_wx (c : Dev nD) (t : Fin cfg0.N) (d) : (dats m 0 c).before 3 t d = iblk m c 3 t :=
  ((dats m 0 c).before_in_eq_fetched 3 rfl (fun _ => rfl) (fun _ _ _ => rfl)
      (fun t => by rw [after_wx]; unfold Dat.blockOf iblk; rw [A_eq]; try rfl) t d).trans
    (by unfold Dat.fetched Dat.blockOf iblk; rw [A_eq]; try rfl)
/-- The hidden weights's current staging buffer holds its block at every tile, fetched there or not: a body that
    leaves the block in place finds, where nothing was fetched, the block of the tile before, whose
    index is the same. -/
theorem before_wh (c : Dev nD) (t : Fin cfg0.N) (d) : (dats m 0 c).before 4 t d = iblk m c 4 t :=
  ((dats m 0 c).before_in_eq_fetched 4 rfl (fun _ => rfl) (fun _ _ _ => rfl)
      (fun t => by rw [after_wh]; unfold Dat.blockOf iblk; rw [A_eq]; try rfl) t d).trans
    (by unfold Dat.fetched Dat.blockOf iblk; rw [A_eq]; try rfl)
/-- The bias row's current staging buffer holds its block at every tile, fetched there or not: a body that
    leaves the block in place finds, where nothing was fetched, the block of the tile before, whose
    index is the same. -/
theorem before_b (c : Dev nD) (t : Fin cfg0.N) (d) : (dats m 0 c).before 5 t d = iblk m c 5 t :=
  ((dats m 0 c).before_in_eq_fetched 5 rfl (fun _ => rfl) (fun _ _ _ => rfl)
      (fun t => by rw [after_b]; unfold Dat.blockOf iblk; rw [A_eq]; try rfl) t d).trans
    (by unfold Dat.fetched Dat.blockOf iblk; rw [A_eq]; try rfl)

/-! ## The frame claim's post from the frame run's -/

/-- In a final state of the launch theorem's post every argument is as launched: the three tiled
    inputs are arrays of windows the body never stores into, the other sixteen arguments are
    staged by no window; each ends as the region found it, which is as launched. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18) := ⟨
  ((h c).1 0).trans (((dats 0 c).arrAt_in 0 rfl _).trans ((hA c 0).trans (V_kept m c main_arg0 (by decide)))),
  ((h c).1 1).trans (((dats 0 c).arrAt_in 1 rfl _).trans ((hA c 1).trans (V_kept m c main_arg1 (by decide)))),
  ((h c).1 2).trans (((dats 0 c).arrAt_in 2 rfl _).trans ((hA c 2).trans (V_kept m c main_arg2 (by decide)))),
  ((h c).2 main_arg3 (Pipeline.mem_restRefs_of main_arg3 (by decide) (by decide))).trans (V_kept m c main_arg3 (by decide)),
  ((h c).2 main_arg4 (Pipeline.mem_restRefs_of main_arg4 (by decide) (by decide))).trans (V_kept m c main_arg4 (by decide)),
  ((h c).2 main_arg5 (Pipeline.mem_restRefs_of main_arg5 (by decide) (by decide))).trans (V_kept m c main_arg5 (by decide)),
  ((h c).2 main_arg6 (Pipeline.mem_restRefs_of main_arg6 (by decide) (by decide))).trans (V_kept m c main_arg6 (by decide)),
  ((h c).2 main_arg7 (Pipeline.mem_restRefs_of main_arg7 (by decide) (by decide))).trans (V_kept m c main_arg7 (by decide)),
  ((h c).2 main_arg8 (Pipeline.mem_restRefs_of main_arg8 (by decide) (by decide))).trans (V_kept m c main_arg8 (by decide)),
  ((h c).2 main_arg9 (Pipeline.mem_restRefs_of main_arg9 (by decide) (by decide))).trans (V_kept m c main_arg9 (by decide)),
  ((h c).2 main_arg10 (Pipeline.mem_restRefs_of main_arg10 (by decide) (by decide))).trans (V_kept m c main_arg10 (by decide)),
  ((h c).2 main_arg11 (Pipeline.mem_restRefs_of main_arg11 (by decide) (by decide))).trans (V_kept m c main_arg11 (by decide)),
  ((h c).2 main_arg12 (Pipeline.mem_restRefs_of main_arg12 (by decide) (by decide))).trans (V_kept m c main_arg12 (by decide)),
  ((h c).2 main_arg13 (Pipeline.mem_restRefs_of main_arg13 (by decide) (by decide))).trans (V_kept m c main_arg13 (by decide)),
  ((h c).2 main_arg14 (Pipeline.mem_restRefs_of main_arg14 (by decide) (by decide))).trans (V_kept m c main_arg14 (by decide)),
  ((h c).2 main_arg15 (Pipeline.mem_restRefs_of main_arg15 (by decide) (by decide))).trans (V_kept m c main_arg15 (by decide)),
  ((h c).2 main_arg16 (Pipeline.mem_restRefs_of main_arg16 (by decide) (by decide))).trans (V_kept m c main_arg16 (by decide)),
  ((h c).2 main_arg17 (Pipeline.mem_restRefs_of main_arg17 (by decide) (by decide))).trans (V_kept m c main_arg17 (by decide)),
  ((h c).2 main_arg18 (Pipeline.mem_restRefs_of main_arg18 (by decide) (by decide))).trans (V_kept m c main_arg18 (by decide))⟩

/-- The frame claim's post from a run to the launch theorem's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept m dats hA r h c) h

/-! ## The body's triple -/

set_option maxHeartbeats 1000000 in
/-- The body on whole staging buffers, the six inputs' at read contents and the two outputs' at
    anything, runs to the continuation holding the inputs' as they were and the outputs' at the
    stored values. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverTile _)
  iexists _; isplitr
  swap; · iexact H7
  ipureintro
  exact View.read_writes_eq_canon _ _ _ (coverTile _)

/-! ## The body obligation, at a generic tile -/

/-- What the body is called with at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any tile: the input buffers hold their blocks, so the triple applies; the invariant
    and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_h, before_c, before_wx, before_wh, before_b]
  rw [show (dats m 0 c).Φ t.succ = (dats m 0 c).Φ t.castSucc from rfl,
    show (dats m 0 c).owesAt () t.succ = (dats m 0 c).owesAt () t.castSucc from rfl,
    after_x, after_h, after_c, after_wx, after_wh, after_b, after_hNew, after_cNew]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every
    array of the pipeline at what the proof data computes and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates without a fault and leaves its nineteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Cell

end
-- ==== Proof.CellData.lean ====
/-
  The LSTM cell as one pipelined region: what the region finds and what each grid point leaves.

  The program first builds, on the host, the stacked weights (the four gates' input and hidden
  matrices one above the other, 4096 x 1024 each), transposes them to 1024 x 4096, and the summed
  stacked bias as a 1 x 4096 row.  The region then walks the batch in 64 tiles of 128 rows.  At a
  tile the body reads the tile's rows of x, h and c, the whole of both weight matrices and the
  bias row, and writes the tile's rows of the new hidden state h' and the new cell state c':

      z   = x W_x + h W_h + b                (128 x 4096, the four gates side by side)
      c'  = sigmoid(z_f) * c + sigmoid(z_i) * tanh(z_g)
      h'  = sigmoid(z_o) * tanh(c')

  This module fixes, at any float instance, the arrays as the region finds them (the host
  operations applied to the launch memory), each window's block at a tile, the two stored values
  as functions of the blocks read, and the pipeline's proof data built from them.
-/
import proofs.«126319_j37099927503216_1_alg».proof.Proof.Gen.KernelIdeal.Launch
import proofs.«126319_j37099927503216_1_alg».proof.Proof.Gen.KernelIdeal.Skeleton
import proofs.«126319_j37099927503216_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ)

/-! ## The arrays when the region is entered -/

/-- Core `c`'s buffers when the region is entered: the launch memory after the ten host operations
    (the stacking, the bias sum and its reshape, the two transposes and the two format changes). -/
abbrev V (c : Dev nD) (b : Ref sig .tc) : Buf (Elt F) ((c : Thread nD τ).loc b) :=
  StableHlo.after hostOps0 (fun b => m (c, b)) b

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What a tile's body stores -/

/-- The whole 128 x 1024 tile, the whole 1024 x 4096 weight block, the whole 1 x 4096 bias row. -/
abbrev rTile : Rect S128x1024 := Rect.unit (s := S128x1024) ![0, 0] S128x1024.size inb_S128x1024_S128x1024_0_0
abbrev rWeights : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-- The new hidden state's tile, from the blocks the body reads: its one store covers the buffer. -/
def outH (x h cp : Vec F S128x1024 .f32) (wx wh : Vec F S1024x4096 .bf16) (b : Vec F S1x4096 .f32) : Vec F S128x1024 .f32 :=
  View.canon [⟨rTile, k0_pay3 (View.ld x rTile) (View.ld h rTile) (View.ld wx rWeights) (View.ld wh rWeights) (View.ld b rBias) (View.ld cp rTile)⟩]

/-- The new cell state's tile, likewise. -/
def outC (x h cp : Vec F S128x1024 .f32) (wx wh : Vec F S1024x4096 .bf16) (b : Vec F S1x4096 .f32) : Vec F S128x1024 .f32 :=
  View.canon [⟨rTile, k0_pay2 (View.ld x rTile) (View.ld h rTile) (View.ld wx rWeights) (View.ld wh rWeights) (View.ld b rBias) (View.ld cp rTile)⟩]

/-- One store through the whole-tile rectangle covers the tile. -/
theorem coverTile (p0 : Vec F S128x1024 .f32) (y : S128x1024.Idx) :
    ∃ pc ∈ ([⟨rTile, p0⟩] : List (View.Piece (Elt F) S128x1024 .f32)), y ∈ pc.1.set :=
  View.cover_of_tiled [⟨rTile, p0⟩] S128x1024.size (by rfl) y

/-! ## The pipeline's proof data -/

/-- On core `c`: the arrays as the region finds them; after the body at tile `t` each input's buffer
    still at its block, the two outputs' at the stored values; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_x (c : Dev nD) (t : Fin cfg0.N) : (dats m 0 c).after 0 t = iblk m c 0 t := by dsimp only [dats]
theorem after_h (c : Dev nD) (t : Fin cfg0.N) : (dats m 0 c).after 1 t = iblk m c 1 t := by dsimp only [dats]
theorem after_c (c : Dev nD) (t : Fin cfg0.N) : (dats m 0 c).after 2 t = iblk m c 2 t := by dsimp only [dats]
theorem after_wx (c : Dev nD) (t : Fin cfg0.N) : (dats m 0 c).after 3 t = iblk m c 3 t := by dsimp only [dats]
theorem after_wh (c : Dev nD) (t : Fin cfg0.N) : (dats m 0 c).after 4 t = iblk m c 4 t := by dsimp only [dats]
theorem after_b (c : Dev nD) (t : Fin cfg0.N) : (dats m 0 c).after 5 t = iblk m c 5 t := by dsimp only [dats]
theorem after_hNew (c : Dev nD) (t : Fin cfg0.N) : (dats m 0 c).after 6 t
    = outH (iblk m c 0 t) (iblk m c 1 t) (iblk m c 2 t) (iblk m c 3 t) (iblk m c 4 t) (iblk m c 5 t) := by dsimp only [dats]
theorem after_cNew (c : Dev nD) (t : Fin cfg0.N) : (dats m 0 c).after 7 t
    = outC (iblk m c 0 t) (iblk m c 1 t) (iblk m c 2 t) (iblk m c 3 t) (iblk m c 4 t) (iblk m c 5 t) := by dsimp only [dats]

end Cert.KernelIdeal.Cell

end
-- ==== Proof.CellFrame.lean ====
/-
  The LSTM cell's region runs to its end and leaves every argument as launched.

  None of the ten host operations before the region writes an argument, so the region finds all
  nineteen as launched.  At every tile the body finds each of its six input buffers at that
  window's block (the three tiled inputs are fetched at every tile; the two weight matrices and the
  bias row are fetched once and their block index never moves), loads them whole, and stores the
  two results through whole-tile rectangles.  The pipeline's launch theorem then runs all 64 tiles:
  the arrays end at what the proof data computes, and every buffer no window stages ends as the
  region found it.
-/
import proofs.«126319_j37099927503216_1_alg».proof.Proof.CellData

set_option maxRecDepth 16384

noncomputable section

namespace Cert.KernelIdeal.Cell

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

theorem hostOps0_fresh : (hostOps0 : List (HloOp τ sig (Elt F))).Forall fun op => op.fresh = ∅ := by
  simp only [List.Forall]; repeat' constructor

/-- @main is the ten host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the ten host results is found by the region as launched. -/
theorem V_kept (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9) :
    V m c b = m ((c : Thread nD τ).loc b) := by
  obtain ⟨h0, h1, h2, h3, h4, h5, h6, h7, h8, h9⟩ := hb
  refine StableHlo.after_of_forall_not_mem (b := Proc.devRef .tc b) _ _ (List.forall_iff_forall_mem.mp ?_)
  simp only [hostOps0, List.Forall, StableHlo.nary_writes, StableHlo.unary_writes, StableHlo.binary_writes,
    StableHlo.reshape_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9⟩

/-! ## Each input buffer at its block -/

/-- The input x's current staging buffer holds its block at every tile, fetched there or not: a body that
    leaves the block in place finds, where nothing was fetched, the block of the tile before, whose
    index is the same. -/
theorem before_x (c : Dev nD) (t : Fin cfg0.N) (d) : (dats m 0 c).before 0 t d = iblk m c 0 t :=
  ((dats m 0 c).before_in_eq_fetched 0 rfl (fun _ => rfl) (fun _ _ _ => rfl)
      (fun t => by rw [after_x]; unfold Dat.blockOf iblk; rw [A_eq]; try rfl) t d).trans
    (by unfold Dat.fetched Dat.blockOf iblk; rw [A_eq]; try rfl)
/-- The previous hidden state's current staging buffer holds its block at every tile, fetched there or not: a body that
    leaves the block in place finds, where nothing was fetched, the block of the tile before, whose
    index is the same. -/
theorem before_h (c : Dev nD) (t : Fin cfg0.N) (d) : (dats m 0 c).before 1 t d = iblk m c 1 t :=
  ((dats m 0 c).before_in_eq_fetched 1 rfl (fun _ => rfl) (fun _ _ _ => rfl)
      (fun t => by rw [after_h]; unfold Dat.blockOf iblk; rw [A_eq]; try rfl) t d).trans
    (by unfold Dat.fetched Dat.blockOf iblk; rw [A_eq]; try rfl)
/-- The previous cell state's current staging buffer holds its block at every tile, fetched there or not: a body that
    leaves the block in place finds, where nothing was fetched, the block of the tile before, whose
    index is the same. -/
theorem before_c (c : Dev nD) (t : Fin cfg0.N) (d) : (dats m 0 c).before 2 t d = iblk m c 2 t :=
  ((dats m 0 c).before_in_eq_fetched 2 rfl (fun _ => rfl) (fun _ _ _ => rfl)
      (fun t => by rw [after_c]; unfold Dat.blockOf iblk; rw [A_eq]; try rfl) t d).trans
    (by unfold Dat.fetched Dat.blockOf iblk; rw [A_eq]; try rfl)
/-- The input weights's current staging buffer holds its block at every tile, fetched there or not: a body that
    leaves the block in place finds, where nothing was fetched, the block of the tile before, whose
    index is the same. -/
theorem before_wx (c : Dev nD) (t : Fin cfg0.N) (d) : (dats m 0 c).before 3 t d = iblk m c 3 t :=
  ((dats m 0 c).before_in_eq_fetched 3 rfl (fun _ => rfl) (fun _ _ _ => rfl)
      (fun t => by rw [after_wx]; unfold Dat.blockOf iblk; rw [A_eq]; try rfl) t d).trans
    (by unfold Dat.fetched Dat.blockOf iblk; rw [A_eq]; try rfl)
/-- The hidden weights's current staging buffer holds its block at every tile, fetched there or not: a body that
    leaves the block in place finds, where nothing was fetched, the block of the tile before, whose
    index is the same. -/
theorem before_wh (c : Dev nD) (t : Fin cfg0.N) (d) : (dats m 0 c).before 4 t d = iblk m c 4 t :=
  ((dats m 0 c).before_in_eq_fetched 4 rfl (fun _ => rfl) (fun _ _ _ => rfl)
      (fun t => by rw [after_wh]; unfold Dat.blockOf iblk; rw [A_eq]; try rfl) t d).trans
    (by unfold Dat.fetched Dat.blockOf iblk; rw [A_eq]; try rfl)
/-- The bias row's current staging buffer holds its block at every tile, fetched there or not: a body that
    leaves the block in place finds, where nothing was fetched, the block of the tile before, whose
    index is the same. -/
theorem before_b (c : Dev nD) (t : Fin cfg0.N) (d) : (dats m 0 c).before 5 t d = iblk m c 5 t :=
  ((dats m 0 c).before_in_eq_fetched 5 rfl (fun _ => rfl) (fun _ _ _ => rfl)
      (fun t => by rw [after_b]; unfold Dat.blockOf iblk; rw [A_eq]; try rfl) t d).trans
    (by unfold Dat.fetched Dat.blockOf iblk; rw [A_eq]; try rfl)

/-! ## The frame claim's post from the frame run's -/

/-- In a final state of the launch theorem's post every argument is as launched: the three tiled
    inputs are arrays of windows the body never stores into, the other sixteen arguments are
    staged by no window; each ends as the region found it, which is as launched. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18) := ⟨
  ((h c).1 0).trans (((dats 0 c).arrAt_in 0 rfl _).trans ((hA c 0).trans (V_kept m c main_arg0 (by decide)))),
  ((h c).1 1).trans (((dats 0 c).arrAt_in 1 rfl _).trans ((hA c 1).trans (V_kept m c main_arg1 (by decide)))),
  ((h c).1 2).trans (((dats 0 c).arrAt_in 2 rfl _).trans ((hA c 2).trans (V_kept m c main_arg2 (by decide)))),
  ((h c).2 main_arg3 (Pipeline.mem_restRefs_of main_arg3 (by decide) (by decide))).trans (V_kept m c main_arg3 (by decide)),
  ((h c).2 main_arg4 (Pipeline.mem_restRefs_of main_arg4 (by decide) (by decide))).trans (V_kept m c main_arg4 (by decide)),
  ((h c).2 main_arg5 (Pipeline.mem_restRefs_of main_arg5 (by decide) (by decide))).trans (V_kept m c main_arg5 (by decide)),
  ((h c).2 main_arg6 (Pipeline.mem_restRefs_of main_arg6 (by decide) (by decide))).trans (V_kept m c main_arg6 (by decide)),
  ((h c).2 main_arg7 (Pipeline.mem_restRefs_of main_arg7 (by decide) (by decide))).trans (V_kept m c main_arg7 (by decide)),
  ((h c).2 main_arg8 (Pipeline.mem_restRefs_of main_arg8 (by decide) (by decide))).trans (V_kept m c main_arg8 (by decide)),
  ((h c).2 main_arg9 (Pipeline.mem_restRefs_of main_arg9 (by decide) (by decide))).trans (V_kept m c main_arg9 (by decide)),
  ((h c).2 main_arg10 (Pipeline.mem_restRefs_of main_arg10 (by decide) (by decide))).trans (V_kept m c main_arg10 (by decide)),
  ((h c).2 main_arg11 (Pipeline.mem_restRefs_of main_arg11 (by decide) (by decide))).trans (V_kept m c main_arg11 (by decide)),
  ((h c).2 main_arg12 (Pipeline.mem_restRefs_of main_arg12 (by decide) (by decide))).trans (V_kept m c main_arg12 (by decide)),
  ((h c).2 main_arg13 (Pipeline.mem_restRefs_of main_arg13 (by decide) (by decide))).trans (V_kept m c main_arg13 (by decide)),
  ((h c).2 main_arg14 (Pipeline.mem_restRefs_of main_arg14 (by decide) (by decide))).trans (V_kept m c main_arg14 (by decide)),
  ((h c).2 main_arg15 (Pipeline.mem_restRefs_of main_arg15 (by decide) (by decide))).trans (V_kept m c main_arg15 (by decide)),
  ((h c).2 main_arg16 (Pipeline.mem_restRefs_of main_arg16 (by decide) (by decide))).trans (V_kept m c main_arg16 (by decide)),
  ((h c).2 main_arg17 (Pipeline.mem_restRefs_of main_arg17 (by decide) (by decide))).trans (V_kept m c main_arg17 (by decide)),
  ((h c).2 main_arg18 (Pipeline.mem_restRefs_of main_arg18 (by decide) (by decide))).trans (V_kept m c main_arg18 (by decide))⟩

/-- The frame claim's post from a run to the launch theorem's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept m dats hA r h c) h

/-! ## The body's triple -/

set_option maxHeartbeats 1000000 in
/-- The body on whole staging buffers, the six inputs' at read contents and the two outputs' at
    anything, runs to the continuation holding the inputs' as they were and the outputs' at the
    stored values. -/
theorem sound_kernel (c : Dev nD) (E : Set ℕ) (i : grid0.Coords)
    (arg1 : Memref sig .tc .vmem S128x1024 .f32) (harg1 : arg1.IsWhole) (arg2 : Memref sig .tc .vmem S128x1024 .f32) (harg2 : arg2.IsWhole)
    (arg3 : Memref sig .tc .vmem S128x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S128x1024 .f32) (harg7 : arg7.IsWhole) (arg8 : Memref sig .tc .vmem S128x1024 .f32) (harg8 : arg8.IsWhole)
    (x0 x1 x2 : Vec F S128x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverTile _)
  iexists _; isplitr
  swap; · iexact H7
  ipureintro
  exact View.read_writes_eq_canon _ _ _ (coverTile _)

/-! ## The body obligation, at a generic tile -/

/-- What the body is called with at tile `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any tile: the input buffers hold their blocks, so the triple applies; the invariant
    and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_h, before_c, before_wx, before_wh, before_b]
  rw [show (dats m 0 c).Φ t.succ = (dats m 0 c).Φ t.castSucc from rfl,
    show (dats m 0 c).owesAt () t.succ = (dats m 0 c).owesAt () t.castSucc from rfl,
    after_x, after_h, after_c, after_wx, after_wh, after_b, after_hNew, after_cNew]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, every
    array of the pipeline at what the proof data computes and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates without a fault and leaves its nineteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Cell

end
-- ==== Proof.CellSpec.lean ====
/-
  The LSTM cell as mathematics, over the extended reals.

  For n batch rows and hidden width 1024, with the four gates' weights stacked side by side into
  two 1024 x 4096 matrices (columns 0..1023 the input gate, 1024..2047 the forget gate,
  2048..3071 the candidate, 3072..4095 the output gate) and one 4096-wide bias:

      z(r, q)   = (sum_k x(r,k) W_x(k,q)  +  sum_k h(r,k) W_h(k,q))  +  b(q)
      c'(r, j)  = sigmoid(z(r, 1024 + j)) c(r, j) + sigmoid(z(r, j)) tanh(z(r, 2048 + j))
      h'(r, j)  = sigmoid(z(r, 3072 + j)) tanh(c'(r, j))

  with sigmoid(u) = 1 / (1 + exp(-u)), each operation the exact one on the extended reals.  The
  grouping of the three summands of z is the one both programs use.  Nothing here needs the
  inputs finite: the two programs are compared term by term, never rearranged.

  Row r of c' and h' depends only on row r of x, h and c.  So the same formulas describe a tile of
  128 rows and the whole batch of 8192, and a tile's result is the batch's at the tile's rows.
-/
import Idealize.ShloMosaic.PureOps.Ideal
import Idealize.ShloMosaic.Lib.ValueIdx

noncomputable section

namespace Cert.CellSpec

open Idealize.ShloMosaic Idealize.ShloMosaic.ValueIdx

/-- `n` batch rows of width 1024: x, h, c and the results h', c'. -/
abbrev Rows (n : Nat) : Shape := ⟨2, ![n, 1024]⟩
/-- A stacked, transposed weight matrix: 1024 rows, the four gates' 1024 columns side by side. -/
abbrev Weights : Shape := ⟨2, ![1024, 4096]⟩
/-- The stacked bias. -/
abbrev Bias : Shape := ⟨1, ![4096]⟩

/-- Column `j` of gate `g` among the 4096 stacked columns (gates in the order input, forget,
    candidate, output). -/
def gateCol (g : Fin 4) (j : Fin 1024) : Fin 4096 := ⟨1024 * g.val + j.val, by omega⟩

variable {n : Nat}

/-- The gates' pre-activation at batch row `r`, stacked column `q`. -/
def preact (x h : (Rows n).Idx → EReal) (wx wh : Weights.Idx → EReal) (b : Bias.Idx → EReal)
    (r : Fin n) (q : Fin 4096) : EReal :=
  ((∑ k : Fin 1024, x (ix2 r k) * wx (ix2 k q)) + ∑ k : Fin 1024, h (ix2 r k) * wh (ix2 k q)) + b (ix1 q)

/-- The new cell state at row `r`, column `j`. -/
def cellAt (x h cp : (Rows n).Idx → EReal) (wx wh : Weights.Idx → EReal) (b : Bias.Idx → EReal)
    (r : Fin n) (j : Fin 1024) : EReal :=
  Ideal.logistic (preact x h wx wh b r (gateCol 1 j)) * cp (ix2 r j)
    + Ideal.logistic (preact x h wx wh b r (gateCol 0 j)) * Ideal.tanh (preact x h wx wh b r (gateCol 2 j))

/-- The new hidden state at row `r`, column `j`. -/
def hiddenAt (x h cp : (Rows n).Idx → EReal) (wx wh : Weights.Idx → EReal) (b : Bias.Idx → EReal)
    (r : Fin n) (j : Fin 1024) : EReal :=
  Ideal.logistic (preact x h wx wh b r (gateCol 3 j)) * Ideal.tanh (cellAt x h cp wx wh b r j)

/-- The new cell state as an array. -/
def newCell (x h cp : (Rows n).Idx → EReal) (wx wh : Weights.Idx → EReal) (b : Bias.Idx → EReal) : (Rows n).Idx → EReal :=
  fun i => cellAt x h cp wx wh b (i 0) (i 1)

/-- The new hidden state as an array. -/
def newHidden (x h cp : (Rows n).Idx → EReal) (wx wh : Weights.Idx → EReal) (b : Bias.Idx → EReal) : (Rows n).Idx → EReal :=
  fun i => hiddenAt x h cp wx wh b (i 0) (i 1)

theorem newCell_apply (x h cp : (Rows n).Idx → EReal) (wx wh : Weights.Idx → EReal) (b : Bias.Idx → EReal)
    (r : Fin n) (j : Fin 1024) : newCell x h cp wx wh b (ix2 r j) = cellAt x h cp wx wh b r j := rfl

theorem newHidden_apply (x h cp : (Rows n).Idx → EReal) (wx wh : Weights.Idx → EReal) (b : Bias.Idx → EReal)
    (r : Fin n) (j : Fin 1024) : newHidden x h cp wx wh b (ix2 r j) = hiddenAt x h cp wx wh b r j := rfl

/-! ## A row of the results reads only that row of the inputs -/

variable {n' : Nat}

theorem preact_congr (x h : (Rows n).Idx → EReal) (x' h' : (Rows n').Idx → EReal) (wx wh : Weights.Idx → EReal)
    (b : Bias.Idx → EReal) (r : Fin n) (r' : Fin n')
    (hx : ∀ k : Fin 1024, x (ix2 r k) = x' (ix2 r' k)) (hh : ∀ k : Fin 1024, h (ix2 r k) = h' (ix2 r' k)) (q : Fin 4096) :
    preact x h wx wh b r q = preact x' h' wx wh b r' q := by
  unfold preact
  simp only [hx, hh]

theorem cellAt_congr (x h cp : (Rows n).Idx → EReal) (x' h' cp' : (Rows n').Idx → EReal) (wx wh : Weights.Idx → EReal)
    (b : Bias.Idx → EReal) (r : Fin n) (r' : Fin n')
    (hx : ∀ k : Fin 1024, x (ix2 r k) = x' (ix2 r' k)) (hh : ∀ k : Fin 1024, h (ix2 r k) = h' (ix2 r' k))
    (hc : ∀ j : Fin 1024, cp (ix2 r j) = cp' (ix2 r' j)) (j : Fin 1024) :
    cellAt x h cp wx wh b r j = cellAt x' h' cp' wx wh b r' j := by
  unfold cellAt
  rw [hc j, preact_congr x h x' h' wx wh b r r' hx hh, preact_congr x h x' h' wx wh b r r' hx hh,
    preact_congr x h x' h' wx wh b r r' hx hh]

theorem hiddenAt_congr (x h cp : (Rows n).Idx → EReal) (x' h' cp' : (Rows n').Idx → EReal) (wx wh : Weights.Idx → EReal)
    (b : Bias.Idx → EReal) (r : Fin n) (r' : Fin n')
    (hx : ∀ k : Fin 1024, x (ix2 r k) = x' (ix2 r' k)) (hh : ∀ k : Fin 1024, h (ix2 r k) = h' (ix2 r' k))
    (hc : ∀ j : Fin 1024, cp (ix2 r j) = cp' (ix2 r' j)) (j : Fin 1024) :
    hiddenAt x h cp wx wh b r j = hiddenAt x' h' cp' wx wh b r' j := by
  unfold hiddenAt
  rw [cellAt_congr x h cp x' h' cp' wx wh b r r' hx hh hc j, preact_congr x h x' h' wx wh b r r' hx hh]

end Cert.CellSpec

end
-- ==== Proof.CellBody.lean ====
/-
  One tile of the LSTM cell read at an index: the body computes the specification at 128 rows.

  At a tile the body holds 128 rows of x, h and c, both 1024 x 4096 weight matrices and the
  1 x 4096 bias row.  A change of float format is the identity on the extended reals, a matrix
  product into a zero accumulator is the plain sum over the 1024 contracted positions, the bias
  row broadcast down the 128 rows is the bias at the column, and the four gates are the four
  1024-column slices of the 128 x 4096 pre-activation.  So entry (p, j) of the two stored values
  is the specification's new cell and hidden state at row p, column j of the tile.
-/
import proofs.«126319_j37099927503216_1_alg».proof.Proof.Gen.KernelIdeal.Skeleton
import proofs.«126319_j37099927503216_1_alg».proof.Proof.CellSpec
import Idealize.ShloMosaic.Lib.Pipeline.Value
import Idealize.ShloMosaic.Lib.ValueIdx
import Idealize.ShloMosaic.PureOps.Ideal.Laws

noncomputable section

namespace Cert.KernelIdeal.CellBody

open Cert.KernelIdeal Cert.KernelIdeal.Gen Cert.CellSpec
open Idealize.ShloMosaic Idealize.ShloMosaic.TcCoe Idealize.ShloMosaic.ValueIdx

/-! ## The matrix product of a tile -/

theorem lhs_rows (i : S128x4096.Idx) (q : dot_S128x1024_S1024x4096_S128x4096_1_0_0_1_n_n.contr.Idx) :
    (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem lhs_contracted (i : S128x4096.Idx) (q : dot_S128x1024_S1024x4096_S128x4096_1_0_0_1_n_n.contr.Idx) :
    (dot_S128x1024_S1024x4096_S128x4096_1_0_0_1_n_n.lhsIdx i q 1).val = (q ⟨0, by decide⟩).val :=
  dot_S128x1024_S1024x4096_S128x4096_1_0_0_1_n_n.lhsIdx_val_of_single rfl i q
theorem rhs_contracted (i : S128x4096.Idx) (q : dot_S128x1024_S1024x4096_S128x4096_1_0_0_1_n_n.contr.Idx) :
    (dot_S128x1024_S1024x4096_S128x4096_1_0_0_1_n_n.rhsIdx i q 0).val = (q ⟨0, by decide⟩).val :=
  dot_S128x1024_S1024x4096_S128x4096_1_0_0_1_n_n.rhsIdx_val_of_single rfl i q
theorem rhs_cols (i : S128x4096.Idx) (q : dot_S128x1024_S1024x4096_S128x4096_1_0_0_1_n_n.contr.Idx) :
    (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- A 128 x 1024 by 1024 x 4096 product into the zero accumulator, at (p, q): the sum over the 1024
    contracted positions of the row's entry times the column's. -/
theorem product_apply (a : FVec Ideal S128x1024 .bf16) (w : FVec Ideal S1024x4096 .bf16) (p : Fin 128) (q : Fin 4096) :
    matmul dot_S128x1024_S1024x4096_S128x4096_1_0_0_1_n_n none a w (constant S128x4096 .f32 0x00000000#32) (ix2 p q)
      = ∑ k : Fin 1024, a (ix2 p k) * w (ix2 k q) := by
  simp only [matmul]
  rw [Ideal.matmul_constant_zero_apply, ← Equiv.sum_comp (ValueIdx.contrEquiv1 dot_S128x1024_S1024x4096_S128x4096_1_0_0_1_n_n 1024 rfl rfl).symm]
  refine Finset.sum_congr rfl fun k _ => ?_
  have hk := ValueIdx.contrEquiv1_symm_val dot_S128x1024_S1024x4096_S128x4096_1_0_0_1_n_n 1024 rfl rfl k
  have el : dot_S128x1024_S1024x4096_S128x4096_1_0_0_1_n_n.lhsIdx (ix2 p q) ((ValueIdx.contrEquiv1 dot_S128x1024_S1024x4096_S128x4096_1_0_0_1_n_n 1024 rfl rfl).symm k) = ix2 p k := funext fun a => Fin.ext (by
    match a with
    | ⟨0, _⟩ => exact lhs_rows _ _
    | ⟨1, _⟩ => exact (lhs_contracted _ _).trans hk)
  have er : dot_S128x1024_S1024x4096_S128x4096_1_0_0_1_n_n.rhsIdx (ix2 p q) ((ValueIdx.contrEquiv1 dot_S128x1024_S1024x4096_S128x4096_1_0_0_1_n_n 1024 rfl rfl).symm k) = ix2 k q := funext fun a => Fin.ext (by
    match a with
    | ⟨0, _⟩ => exact (rhs_contracted _ _).trans hk
    | ⟨1, _⟩ => exact rhs_cols _ _)
  rw [el, er]

/-! ## The pre-activation of a tile -/

/-- The bias row broadcast down the tile's rows, at (p, q), is the row's entry at q. -/
theorem biasRow_apply (b : FVec Ideal S1x4096 .f32) (p : Fin 128) (q : Fin 4096) :
    broadcastTo S128x4096 b broadcasts_S1x4096_S128x4096 (ix2 p q) = b (ix2 (0 : Fin 1) q) :=
  broadcastTo_apply b broadcasts_S1x4096_S128x4096 (ix2 p q) (ix2 (0 : Fin 1) q) (fun a => match a with
    | ⟨0, _⟩ => by show 0 = if (1 : Nat) = 1 then 0 else p.val; rw [if_pos rfl]
    | ⟨1, _⟩ => by show q.val = if (4096 : Nat) = 1 then 0 else q.val; rw [if_neg (by decide)])

variable (v0 v2 v23 : Vec Ideal S128x1024 .f32) (v4 v6 : Vec Ideal S1024x4096 .bf16) (v11 : Vec Ideal S1x4096 .f32)

/-- The bias row as a 4096-vector. -/
abbrev biasOf (v11 : Vec Ideal S1x4096 .f32) : Bias.Idx → EReal := fun q' => v11 (ix2 (0 : Fin 1) (q' 0))

/-- The tile's 128 x 4096 pre-activation at (p, q) is the specification's. -/
theorem preact_tile (p : Fin 128) (q : Fin 4096) :
    k0_pay1 v0 v2 v4 v6 v11 (ix2 p q) = preact (n := 128) v0 v2 v4 v6 (biasOf v11) p q := by
  unfold k0_pay1 preact
  rw [addf_apply, addf_apply, product_apply, product_apply, shapeCast_self, shapeCast_self, shapeCast_self, biasRow_apply]
  rfl

/-! ## The four gates and the two stored values -/

theorem slice0 (y : FVec Ideal S128x4096 .f32) (p : Fin 128) (j : Fin 1024) :
    extractStridedSlice S128x1024 ![0, 0] y slices_S128x4096_o0_0_S128x1024 (ix2 p j) = y (ix2 p (gateCol 0 j)) :=
  extractStridedSlice_apply ![0, 0] y slices_S128x4096_o0_0_S128x1024 (ix2 p j) (ix2 p (gateCol 0 j)) (fun a => match a with
    | ⟨0, _⟩ => by show p.val = 0 + p.val; omega
    | ⟨1, _⟩ => by show 1024 * 0 + j.val = 0 + j.val; omega)
theorem slice1 (y : FVec Ideal S128x4096 .f32) (p : Fin 128) (j : Fin 1024) :
    extractStridedSlice S128x1024 ![0, 1024] y slices_S128x4096_o0_1024_S128x1024 (ix2 p j) = y (ix2 p (gateCol 1 j)) :=
  extractStridedSlice_apply ![0, 1024] y slices_S128x4096_o0_1024_S128x1024 (ix2 p j) (ix2 p (gateCol 1 j)) (fun a => match a with
    | ⟨0, _⟩ => by show p.val = 0 + p.val; omega
    | ⟨1, _⟩ => by show 1024 * 1 + j.val = 1024 + j.val; omega)
theorem slice2 (y : FVec Ideal S128x4096 .f32) (p : Fin 128) (j : Fin 1024) :
    extractStridedSlice S128x1024 ![0, 2048] y slices_S128x4096_o0_2048_S128x1024 (ix2 p j) = y (ix2 p (gateCol 2 j)) :=
  extractStridedSlice_apply ![0, 2048] y slices_S128x4096_o0_2048_S128x1024 (ix2 p j) (ix2 p (gateCol 2 j)) (fun a => match a with
    | ⟨0, _⟩ => by show p.val = 0 + p.val; omega
    | ⟨1, _⟩ => by show 1024 * 2 + j.val = 2048 + j.val; omega)
theorem slice3 (y : FVec Ideal S128x4096 .f32) (p : Fin 128) (j : Fin 1024) :
    extractStridedSlice S128x1024 ![0, 3072] y slices_S128x4096_o0_3072_S128x1024 (ix2 p j) = y (ix2 p (gateCol 3 j)) :=
  extractStridedSlice_apply ![0, 3072] y slices_S128x4096_o0_3072_S128x1024 (ix2 p j) (ix2 p (gateCol 3 j)) (fun a => match a with
    | ⟨0, _⟩ => by show p.val = 0 + p.val; omega
    | ⟨1, _⟩ => by show 1024 * 3 + j.val = 3072 + j.val; omega)

/-- The stored new cell state at (p, j). -/
theorem cell_tile (p : Fin 128) (j : Fin 1024) :
    k0_pay2 v0 v2 v4 v6 v11 v23 (ix2 p j) = cellAt (n := 128) v0 v2 v23 v4 v6 (biasOf v11) p j := by
  unfold k0_pay2 cellAt
  rw [addf_apply, mulf_apply, mulf_apply]
  show Ideal.logistic (extractStridedSlice S128x1024 ![0, 1024] (k0_pay1 v0 v2 v4 v6 v11) slices_S128x4096_o0_1024_S128x1024 (ix2 p j)) * v23 (ix2 p j)
      + Ideal.logistic (extractStridedSlice S128x1024 ![0, 0] (k0_pay1 v0 v2 v4 v6 v11) slices_S128x4096_o0_0_S128x1024 (ix2 p j))
        * Ideal.tanh (extractStridedSlice S128x1024 ![0, 2048] (k0_pay1 v0 v2 v4 v6 v11) slices_S128x4096_o0_2048_S128x1024 (ix2 p j)) = _
  rw [slice0, slice1, slice2, preact_tile, preact_tile, preact_tile]

/-- The stored new hidden state at (p, j). -/
theorem hidden_tile (p : Fin 128) (j : Fin 1024) :
    k0_pay3 v0 v2 v4 v6 v11 v23 (ix2 p j) = hiddenAt (n := 128) v0 v2 v23 v4 v6 (biasOf v11) p j := by
  unfold k0_pay3 hiddenAt
  rw [mulf_apply]
  show Ideal.logistic (extractStridedSlice S128x1024 ![0, 3072] (k0_pay1 v0 v2 v4 v6 v11) slices_S128x4096_o0_3072_S128x1024 (ix2 p j))
      * Ideal.tanh (k0_pay2 v0 v2 v4 v6 v11 v23 (ix2 p j)) = _
  rw [slice3, preact_tile, cell_tile]

end Cert.KernelIdeal.CellBody

end
-- ==== Proof.CellArrays.lean ====
/-
  From tiles to arrays: after the region the two result arrays are the specification's.

  Tile t of the three batch inputs and of the two outputs is rows 128 t .. 128 t + 127; the two
  weight matrices and the bias row are staged whole.  A row of the results reads only that row
  of the inputs, so what tile t writes back is block t of the specification's array computed
  from the whole inputs; the 64 tiles cover the 8192 rows, so after the last tile each result
  array is the specification's array.  On the extended reals the host's change of float format
  is the identity, so the weights the region finds are the stacked, transposed matrices and the
  bias row is the summed stacked bias.
-/
import proofs.«126319_j37099927503216_1_alg».proof.Proof.CellData
import proofs.«126319_j37099927503216_1_alg».proof.Proof.CellBody

set_option maxRecDepth 16384

noncomputable section

namespace Cert.KernelIdeal.CellValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Cell Cert.KernelIdeal.CellBody Cert.CellSpec

variable (m : (ℓ : Loc nD τ sig) → Buf (Elt Ideal) ℓ)

/-! ## The arrays and blocks at their literal types -/

abbrev xArr (c : Dev nD) : Vec Ideal S8192x1024 .f32 := V m c main_arg0
abbrev hArr (c : Dev nD) : Vec Ideal S8192x1024 .f32 := V m c main_arg1
abbrev cArr (c : Dev nD) : Vec Ideal S8192x1024 .f32 := V m c main_arg2
abbrev wxArr (c : Dev nD) : Vec Ideal S1024x4096 .bf16 := V m c main_v7
abbrev whArr (c : Dev nD) : Vec Ideal S1024x4096 .bf16 := V m c main_v9
abbrev bArr (c : Dev nD) : Vec Ideal S1x4096 .f32 := V m c main_v5

abbrev xTile (c : Dev nD) (t : Fin cfg0.N) : Vec Ideal S128x1024 .f32 := iblk m c 0 t
abbrev hTile (c : Dev nD) (t : Fin cfg0.N) : Vec Ideal S128x1024 .f32 := iblk m c 1 t
abbrev cTile (c : Dev nD) (t : Fin cfg0.N) : Vec Ideal S128x1024 .f32 := iblk m c 2 t
abbrev wxBlk (c : Dev nD) (t : Fin cfg0.N) : Vec Ideal S1024x4096 .bf16 := iblk m c 3 t
abbrev whBlk (c : Dev nD) (t : Fin cfg0.N) : Vec Ideal S1024x4096 .bf16 := iblk m c 4 t
abbrev bBlk (c : Dev nD) (t : Fin cfg0.N) : Vec Ideal S1x4096 .f32 := iblk m c 5 t

/-! ## Where the blocks lie -/

theorem hz : (![0, 0] : Fin 2 → Nat) = fun _ => 0 := funext fun a => by fin_cases a <;> rfl

/-- The tiled windows' block index at tile t is (t, 0). -/
theorem tile_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The whole windows' block index is (0, 0) at every tile. -/
theorem whole_index : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Row p of tile t, among the 8192. -/
def tileRow (t : Fin cfg0.N) (p : Fin 128) : Fin 8192 :=
  ⟨128 * t.val + p.val, by have ht : t.val < 64 := t.isLt; have hp := p.isLt; omega⟩

/-- Row p of tile t of x is row 128 t + p of the array. -/
theorem xTile_apply (c : Dev nD) (t : Fin cfg0.N) (p : Fin 128) (k : Fin 1024) :
    xTile m c t (ix2 p k) = xArr m c (ix2 (tileRow t p) k) := by
  show V m c main_arg0 (((cfg0.win 0).blk t).view.emb (ix2 p k)) = V m c main_arg0 (ix2 (tileRow t p) k)
  refine congrArg _ (funext fun a => Fin.ext ?_)
  obtain ⟨e0, e1, e2, e3, e4, e5, e6, e7, e8, e9⟩ := tile_index t
  match a with
  | ⟨0, _⟩ => show win0_0.index t (0 : Fin 2) * 128 + 1 * p.val = 128 * t.val + p.val; omega
  | ⟨1, _⟩ => show win0_0.index t (1 : Fin 2) * 1024 + 1 * k.val = k.val; omega
/-- Row p of tile t of h is row 128 t + p of the array. -/
theorem hTile_apply (c : Dev nD) (t : Fin cfg0.N) (p : Fin 128) (k : Fin 1024) :
    hTile m c t (ix2 p k) = hArr m c (ix2 (tileRow t p) k) := by
  show V m c main_arg1 (((cfg0.win 1).blk t).view.emb (ix2 p k)) = V m c main_arg1 (ix2 (tileRow t p) k)
  refine congrArg _ (funext fun a => Fin.ext ?_)
  obtain ⟨e0, e1, e2, e3, e4, e5, e6, e7, e8, e9⟩ := tile_index t
  match a with
  | ⟨0, _⟩ => show win0_1.index t (0 : Fin 2) * 128 + 1 * p.val = 128 * t.val + p.val; omega
  | ⟨1, _⟩ => show win0_1.index t (1 : Fin 2) * 1024 + 1 * k.val = k.val; omega
/-- Row p of tile t of c is row 128 t + p of the array. -/
theorem cTile_apply (c : Dev nD) (t : Fin cfg0.N) (p : Fin 128) (k : Fin 1024) :
    cTile m c t (ix2 p k) = cArr m c (ix2 (tileRow t p) k) := by
  show V m c main_arg2 (((cfg0.win 2).blk t).view.emb (ix2 p k)) = V m c main_arg2 (ix2 (tileRow t p) k)
  refine congrArg _ (funext fun a => Fin.ext ?_)
  obtain ⟨e0, e1, e2, e3, e4, e5, e6, e7, e8, e9⟩ := tile_index t
  match a with
  | ⟨0, _⟩ => show win0_2.index t (0 : Fin 2) * 128 + 1 * p.val = 128 * t.val + p.val; omega
  | ⟨1, _⟩ => show win0_2.index t (1 : Fin 2) * 1024 + 1 * k.val = k.val; omega

/-- The input weights' matrix is staged whole: its one block is the array. -/
theorem wxBlk_eq (c : Dev nD) (t : Fin cfg0.N) : wxBlk m c t = wxArr m c := by
  funext y
  show V m c main_v7 (((cfg0.win 3).blk t).view.emb y) = V m c main_v7 y
  refine congrArg _ (funext fun a => Fin.ext ?_)
  obtain ⟨f0, f1, f2, f3, f4, f5⟩ := whole_index t
  match a with
  | ⟨0, _⟩ => show win0_3.index t (0 : Fin 2) * 1024 + 1 * (y 0).val = (y 0).val; omega
  | ⟨1, _⟩ => show win0_3.index t (1 : Fin 2) * 4096 + 1 * (y 1).val = (y 1).val; omega
/-- The hidden weights' matrix is staged whole: its one block is the array. -/
theorem whBlk_eq (c : Dev nD) (t : Fin cfg0.N) : whBlk m c t = whArr m c := by
  funext y
  show V m c main_v9 (((cfg0.win 4).blk t).view.emb y) = V m c main_v9 y
  refine congrArg _ (funext fun a => Fin.ext ?_)
  obtain ⟨f0, f1, f2, f3, f4, f5⟩ := whole_index t
  match a with
  | ⟨0, _⟩ => show win0_4.index t (0 : Fin 2) * 1024 + 1 * (y 0).val = (y 0).val; omega
  | ⟨1, _⟩ => show win0_4.index t (1 : Fin 2) * 4096 + 1 * (y 1).val = (y 1).val; omega
/-- The bias row is staged whole: its one block is the array. -/
theorem bBlk_eq (c : Dev nD) (t : Fin cfg0.N) : bBlk m c t = bArr m c := by
  funext y
  show V m c main_v5 (((cfg0.win 5).blk t).view.emb y) = V m c main_v5 y
  refine congrArg _ (funext fun a => Fin.ext ?_)
  obtain ⟨f0, f1, f2, f3, f4, f5⟩ := whole_index t
  match a with
  | ⟨0, _⟩ => show win0_5.index t (0 : Fin 2) * 1 + 1 * (y 0).val = (y 0).val; omega
  | ⟨1, _⟩ => show win0_5.index t (1 : Fin 2) * 4096 + 1 * (y 1).val = (y 1).val; omega

/-! ## What a tile writes back -/

/-- What tile t writes back into the new hidden state is block t of the specification's array. -/
theorem flushedH_eq (c : Dev nD) (t : Fin cfg0.N) :
    (dats m 0 c).flushed 6 t = ((cfg0.win 6).blk t).view.read (Elt Ideal)
      (newHidden (n := 8192) (xArr m c) (hArr m c) (cArr m c) (wxArr m c) (whArr m c) (biasOf (bArr m c))) := by
  show (cfg0.win 6).cut (grid0.coords t) ((dats m 0 c).after 6 t) = _
  rw [after_hNew]
  unfold outH
  rw [View.canon_unit_zero hz]
  simp only [View.ld_unit_zero (S := S128x1024) hz, View.ld_unit_zero (S := S1024x4096) hz, View.ld_unit_zero (S := S1x4096) hz]
  funext y
  obtain ⟨p, j, rfl⟩ : ∃ (p : Fin 128) (j : Fin 1024), y = ix2 p j := ⟨y 0, y 1, eq_ix2 y⟩
  show k0_pay3 (xTile m c t) (hTile m c t) (wxBlk m c t) (whBlk m c t) (bBlk m c t) (cTile m c t) (ix2 p j)
    = newHidden (n := 8192) (xArr m c) (hArr m c) (cArr m c) (wxArr m c) (whArr m c) (biasOf (bArr m c)) (((cfg0.win 6).blk t).view.emb (ix2 p j))
  have hemb : ((cfg0.win 6).blk t).view.emb (ix2 p j) = ix2 (tileRow t p) j := funext fun a => Fin.ext (by
    obtain ⟨e0, e1, e2, e3, e4, e5, e6, e7, e8, e9⟩ := tile_index t
    match a with
    | ⟨0, _⟩ => show win0_6.index t (0 : Fin 2) * 128 + 1 * p.val = 128 * t.val + p.val; omega
    | ⟨1, _⟩ => show win0_6.index t (1 : Fin 2) * 1024 + 1 * j.val = j.val; omega)
  rw [hemb, newHidden_apply, hidden_tile, wxBlk_eq, whBlk_eq, bBlk_eq]
  exact hiddenAt_congr (xTile m c t) (hTile m c t) (cTile m c t) (xArr m c) (hArr m c) (cArr m c) (wxArr m c) (whArr m c) (biasOf (bArr m c))
    p (tileRow t p) (fun k => xTile_apply m c t p k) (fun k => hTile_apply m c t p k) (fun k => cTile_apply m c t p k) j

/-- What tile t writes back into the new cell state is block t of the specification's array. -/
theorem flushedC_eq (c : Dev nD) (t : Fin cfg0.N) :
    (dats m 0 c).flushed 7 t = ((cfg0.win 7).blk t).view.read (Elt Ideal)
      (newCell (n := 8192) (xArr m c) (hArr m c) (cArr m c) (wxArr m c) (whArr m c) (biasOf (bArr m c))) := by
  show (cfg0.win 7).cut (grid0.coords t) ((dats m 0 c).after 7 t) = _
  rw [after_cNew]
  unfold outC
  rw [View.canon_unit_zero hz]
  simp only [View.ld_unit_zero (S := S128x1024) hz, View.ld_unit_zero (S := S1024x4096) hz, View.ld_unit_zero (S := S1x4096) hz]
  funext y
  obtain ⟨p, j, rfl⟩ : ∃ (p : Fin 128) (j : Fin 1024), y = ix2 p j := ⟨y 0, y 1, eq_ix2 y⟩
  show k0_pay2 (xTile m c t) (hTile m c t) (wxBlk m c t) (whBlk m c t) (bBlk m c t) (cTile m c t) (ix2 p j)
    = newCell (n := 8192) (xArr m c) (hArr m c) (cArr m c) (wxArr m c) (whArr m c) (biasOf (bArr m c)) (((cfg0.win 7).blk t).view.emb (ix2 p j))
  have hemb : ((cfg0.win 7).blk t).view.emb (ix2 p j) = ix2 (tileRow t p) j := funext fun a => Fin.ext (by
    obtain ⟨e0, e1, e2, e3, e4, e5, e6, e7, e8, e9⟩ := tile_index t
    match a with
    | ⟨0, _⟩ => show win0_7.index t (0 : Fin 2) * 128 + 1 * p.val = 128 * t.val + p.val; omega
    | ⟨1, _⟩ => show win0_7.index t (1 : Fin 2) * 1024 + 1 * j.val = j.val; omega)
  rw [hemb, newCell_apply, cell_tile, wxBlk_eq, whBlk_eq, bBlk_eq]
  exact cellAt_congr (xTile m c t) (hTile m c t) (cTile m c t) (xArr m c) (hArr m c) (cArr m c) (wxArr m c) (whArr m c) (biasOf (bArr m c))
    p (tileRow t p) (fun k => xTile_apply m c t p k) (fun k => hTile_apply m c t p k) (fun k => cTile_apply m c t p k) j

/-! ## The tiles cover the arrays -/

/-- An index of the array is in tile t's block iff its row is one of the tile's 128. -/
theorem mem_blkH (t : Fin cfg0.N) (i : S8192x1024.Idx) :
    i ∈ ((cfg0.win 6).blk t).view.set ↔ ∀ a : Fin 2, win0_6.index t a * S128x1024.size a ≤ (i a).val ∧ (i a).val < win0_6.index t a * S128x1024.size a + S128x1024.size a := by
  show i ∈ ((View.whole main_v10_0).slice (win0_6.rect t)).set ↔ _
  rw [View.set_slice_whole, Rect.mem_set_unit]
  exact Iff.rfl

/-- Every row lies in the tile numbered by its quotient by 128, which is written back. -/
theorem coverH (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  refine ⟨⟨(i 0).val / 128, by show (i 0).val / 128 < 64; omega⟩, flush0_6 _, ?_⟩
  rw [mem_blkH]
  obtain ⟨e0, e1, e2, e3, e4, e5, e6, e7, e8, e9⟩ := tile_index ⟨(i 0).val / 128, by show (i 0).val / 128 < 64; omega⟩
  intro a
  match a with
  | ⟨0, _⟩ => show win0_6.index _ (0 : Fin 2) * 128 ≤ (i 0).val ∧ (i 0).val < win0_6.index _ (0 : Fin 2) * 128 + 128; simp only [e6]; omega
  | ⟨1, _⟩ => show win0_6.index _ (1 : Fin 2) * 1024 ≤ (i 1).val ∧ (i 1).val < win0_6.index _ (1 : Fin 2) * 1024 + 1024; simp only [e7]; omega

/-- An index of the array is in tile t's block iff its row is one of the tile's 128. -/
theorem mem_blkC (t : Fin cfg0.N) (i : S8192x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v10_1).slice (win0_7.rect t)).set ↔ _
  rw [View.set_slice_whole, Rect.mem_set_unit]
  exact Iff.rfl

/-- Every row lies in the tile numbered by its quotient by 128, which is written back. -/
theorem coverC (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  refine ⟨⟨(i 0).val / 128, by show (i 0).val / 128 < 64; omega⟩, flush0_7 _, ?_⟩
  rw [mem_blkC]
  obtain ⟨e0, e1, e2, e3, e4, e5, e6, e7, e8, e9⟩ := tile_index ⟨(i 0).val / 128, by show (i 0).val / 128 < 64; omega⟩
  intro a
  match a with
  | ⟨0, _⟩ => show win0_7.index _ (0 : Fin 2) * 128 ≤ (i 0).val ∧ (i 0).val < win0_7.index _ (0 : Fin 2) * 128 + 128; simp only [e8]; omega
  | ⟨1, _⟩ => show win0_7.index _ (1 : Fin 2) * 1024 ≤ (i 1).val ∧ (i 1).val < win0_7.index _ (1 : Fin 2) * 1024 + 1024; simp only [e9]; omega

/-! ## The arrays after the region -/

theorem finalH (c : Dev nD) : (dats m 0 c).arrAt 6 cfg0.N
    = newHidden (n := 8192) (xArr m c) (hArr m c) (cArr m c) (wxArr m c) (whArr m c) (biasOf (bArr m c)) :=
  (dats m 0 c).arrAt_eq_of_cover 6 _ (fun t _ => flushedH_eq m c t) coverH

theorem finalC (c : Dev nD) : (dats m 0 c).arrAt 7 cfg0.N
    = newCell (n := 8192) (xArr m c) (hArr m c) (cArr m c) (wxArr m c) (whArr m c) (biasOf (bArr m c)) :=
  (dats m 0 c).arrAt_eq_of_cover 7 _ (fun t _ => flushedC_eq m c t) coverC

end Cert.KernelIdeal.CellValue

end
-- ==== Proof.CellHost.lean ====
/-
  The weights and the bias both programs feed the cell.

  Each program stacks the four gates' 1024 x 1024 weight matrices one above the other (input,
  forget, candidate, output), transposes the 4096 x 1024 stack to 1024 x 4096, and adds the two
  stacked 4096-long biases.  Both spell these with the same operations, so they are stated here
  once and never opened: the cell's formulas read them only as arrays.
-/
import proofs.«126319_j37099927503216_1_alg».proof.Proof.CellSpec

noncomputable section

namespace Cert.CellSpec

open Idealize.ShloMosaic

/-- One gate's weight matrix, the four stacked, one gate's bias. -/
abbrev Gate : Shape := ⟨2, ![1024, 1024]⟩
abbrev Stacked : Shape := ⟨2, ![4096, 1024]⟩
abbrev GateBias : Shape := ⟨1, ![1024]⟩

theorem gates_stack : Shape.Concatenates [Gate, Gate, Gate, Gate] Stacked 0 := by decide
theorem stack_transposes : Stacked.Transposes [1, 0] Weights := by decide
theorem biases_stack : Shape.Concatenates [GateBias, GateBias, GateBias, GateBias] Bias 0 := by decide

/-- The four gates' matrices stacked along the rows, then transposed. -/
def stackedT (wi wf wc wo : Gate.Idx → EReal) : Weights.Idx → EReal :=
  transpose Weights [1, 0] (concatenate Stacked 0 [⟨Gate, wi⟩, ⟨Gate, wf⟩, ⟨Gate, wc⟩, ⟨Gate, wo⟩] gates_stack) stack_transposes

/-- The input-side and hidden-side biases, each stacked over the four gates, summed.  The
    arguments come in the programs' order: input-side and hidden-side alternate, gate by gate. -/
def stackedBias (bxi bhi bxf bhf bxc bhc bxo bho : GateBias.Idx → EReal) : Bias.Idx → EReal :=
  fun q => concatenate Bias 0 [⟨GateBias, bxi⟩, ⟨GateBias, bxf⟩, ⟨GateBias, bxc⟩, ⟨GateBias, bxo⟩] biases_stack q
    + concatenate Bias 0 [⟨GateBias, bhi⟩, ⟨GateBias, bhf⟩, ⟨GateBias, bhc⟩, ⟨GateBias, bho⟩] biases_stack q

end Cert.CellSpec

end
-- ==== Proof.CellRun.lean ====
/-
  The kernel's run, read: both result arrays are the specification's arrays of the arguments.

  The region finds x, h and c as launched, the two weight windows' arrays at the stacked,
  transposed gate matrices (the host's change of float format is the identity on the extended
  reals) and the bias row at the summed stacked bias laid out as one row.  With the arrays after
  the region already the specification's arrays of what the region finds, the run ends with the
  new hidden and cell state at the specification's arrays of the launch memory, every argument
  unchanged.
-/
import proofs.«126319_j37099927503216_1_alg».proof.Proof.CellFrame
import proofs.«126319_j37099927503216_1_alg».proof.Proof.CellArrays
import proofs.«126319_j37099927503216_1_alg».proof.Proof.CellHost
import Idealize.ShloMosaic.Lib.StableHlo.Run

set_option maxRecDepth 16384

noncomputable section

namespace Cert.KernelIdeal.CellValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Cell Cert.KernelIdeal.CellBody Cert.CellSpec

variable (m : (ℓ : Loc nD τ sig) → Buf (Elt Ideal) ℓ)

/-! ## What the region finds -/

theorem x_found (c : Dev nD) : xArr m c = m ((c.tc : Thread nD τ).loc main_arg0) := V_kept m c main_arg0 (by decide)
theorem h_found (c : Dev nD) : hArr m c = m ((c.tc : Thread nD τ).loc main_arg1) := V_kept m c main_arg1 (by decide)
theorem c_found (c : Dev nD) : cArr m c = m ((c.tc : Thread nD τ).loc main_arg2) := V_kept m c main_arg2 (by decide)

/-- The input weights' window stages the four input-side gate matrices, stacked and transposed. -/
theorem wx_found (c : Dev nD) :
    wxArr m c = stackedT (m ((c.tc : Thread nD τ).loc main_arg3)) (m ((c.tc : Thread nD τ).loc main_arg5)) (m ((c.tc : Thread nD τ).loc main_arg7)) (m ((c.tc : Thread nD τ).loc main_arg9)) := by
  show (V m c main_v7 : S1024x4096.Idx → EReal) = _
  dsimp only [V, hostOps0]
  after_results
  rfl

/-- The hidden weights' window stages the four hidden-side gate matrices, stacked and transposed. -/
theorem wh_found (c : Dev nD) :
    whArr m c = stackedT (m ((c.tc : Thread nD τ).loc main_arg4)) (m ((c.tc : Thread nD τ).loc main_arg6)) (m ((c.tc : Thread nD τ).loc main_arg8)) (m ((c.tc : Thread nD τ).loc main_arg10)) := by
  show (V m c main_v9 : S1024x4096.Idx → EReal) = _
  dsimp only [V, hostOps0]
  after_results
  rfl

/-- The bias window stages the summed stacked bias as one row. -/
theorem b_found (c : Dev nD) :
    biasOf (bArr m c) = stackedBias (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  have e : (V m c main_v5 : S1x4096.Idx → EReal)
      = shapeCast S1x4096 (stackedBias (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))) shapeCasts_S4096_S1x4096 := by
    dsimp only [V, hostOps0]
    after_results
    rfl
  funext q'
  show V m c main_v5 (ix2 (0 : Fin 1) (q' 0)) = _
  rw [e]
  refine (shapeCast_addUnit_apply ![4096] _ shapeCasts_S4096_S1x4096 (ix2 (0 : Fin 1) (q' 0))).trans ?_
  refine congrArg _ (funext fun a => ?_)
  match a with
  | ⟨0, _⟩ => rfl

/-! ## The run -/

theorem run (ρ : Dev nD → PrngReg) :
    θ_run defs (onTc (τ := τ) (main (F := Ideal))) ⟨m, fun _ => 0, ρ⟩ (fun r => ∀ c : Dev nD,
      r.2.mem ((c.tc : Thread nD τ).loc main_v10_0) = newHidden (n := 8192) (m ((c.tc : Thread nD τ).loc main_arg0)) (m ((c.tc : Thread nD τ).loc main_arg1)) (m ((c.tc : Thread nD τ).loc main_arg2))
        (stackedT (m ((c.tc : Thread nD τ).loc main_arg3)) (m ((c.tc : Thread nD τ).loc main_arg5)) (m ((c.tc : Thread nD τ).loc main_arg7)) (m ((c.tc : Thread nD τ).loc main_arg9)))
        (stackedT (m ((c.tc : Thread nD τ).loc main_arg4)) (m ((c.tc : Thread nD τ).loc main_arg6)) (m ((c.tc : Thread nD τ).loc main_arg8)) (m ((c.tc : Thread nD τ).loc main_arg10)))
        (stackedBias (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)))
      ∧ r.2.mem ((c.tc : Thread nD τ).loc main_v10_1) = newCell (n := 8192) (m ((c.tc : Thread nD τ).loc main_arg0)) (m ((c.tc : Thread nD τ).loc main_arg1)) (m ((c.tc : Thread nD τ).loc main_arg2))
        (stackedT (m ((c.tc : Thread nD τ).loc main_arg3)) (m ((c.tc : Thread nD τ).loc main_arg5)) (m ((c.tc : Thread nD τ).loc main_arg7)) (m ((c.tc : Thread nD τ).loc main_arg9)))
        (stackedT (m ((c.tc : Thread nD τ).loc main_arg4)) (m ((c.tc : Thread nD τ).loc main_arg6)) (m ((c.tc : Thread nD τ).loc main_arg8)) (m ((c.tc : Thread nD τ).loc main_arg10)))
        (stackedBias (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨((h c).1 6).trans ((finalH m c).trans (by rw [x_found, h_found, c_found, wx_found, wh_found, b_found])),
     ((h c).1 7).trans ((finalC m c).trans (by rw [x_found, h_found, c_found, wx_found, wh_found, b_found])),
     args_kept m (dats m) (A_eq m) r h c⟩)
    (run_main m ρ)

end Cert.KernelIdeal.CellValue

end
-- ==== Proof.RefCell.lean ====
/-
  The reference LSTM cell read at an index: it computes the specification.

  The reference forms the 8192 x 4096 array of pre-activations by two matrix products, their sum
  and the broadcast bias, cuts it into the four gates' 8192 x 1024 column blocks, and applies
  sigmoid (spelt 1 / (1 + exp(-z)) with the constant 1.0), tanh and the cell update pointwise.
  Read at (r, j) stage by stage, each gate's value is the specification's, and so are the two
  results.  The stacked, transposed weights and the summed stacked bias are kept as the reference's
  own stages, unopened: the kernel's program builds the same three arrays.
-/
import proofs.«126319_j37099927503216_1_alg».proof.Proof.Gen.ReferenceIdeal.Read
import proofs.«126319_j37099927503216_1_alg».proof.Proof.CellSpec
import Idealize.ShloMosaic.Lib.IdealHost

noncomputable section

namespace Cert.ReferenceIdeal.CellValue

open Cert.ReferenceIdeal Cert.ReferenceIdeal.Gen Cert.ReferenceIdeal.Read Cert.CellSpec
open Idealize.ShloMosaic Idealize.ShloMosaic.TcCoe Idealize.ShloMosaic.ValueIdx

variable (x0 x1 x2 : (⟨S8192x1024, .f32⟩ : BufTy).Contents (Elt Ideal))
  (x3 x4 x5 x6 x7 x8 x9 x10 : (⟨S1024x1024, .f32⟩ : BufTy).Contents (Elt Ideal))
  (x11 x12 x13 x14 x15 x16 x17 x18 : (⟨S1024, .f32⟩ : BufTy).Contents (Elt Ideal))

/-! ## The pre-activations -/

/-- The array of pre-activations at (r, q): the two products' entries are sums over the 1024
    contracted positions, and the twice-broadcast bias is the bias at q. -/
theorem gates_apply (r : Fin 8192) (q : Fin 4096) :
    val_main_v12 (F := Ideal) x0 x1 x3 x4 x5 x6 x7 x8 x9 x10 x11 x12 x13 x14 x15 x16 x17 x18 (ix2 r q)
      = preact (n := 8192) x0 x1 (val_main_v4 (F := Ideal) x3 x5 x7 x9) (val_main_v6 (F := Ideal) x4 x6 x8 x10) (val_main_v9 (F := Ideal) x11 x12 x13 x14 x15 x16 x17 x18) r q := by
  have el5 : ∀ k : Fin 1024, lidx_main_v5 (ix2 r q) k = ix2 r k := fun k => funext fun a => Fin.ext (by
    match a with
    | ⟨0, _⟩ => rfl
    | ⟨1, _⟩ => rfl)
  have er5 : ∀ k : Fin 1024, ridx_main_v5 (ix2 r q) k = ix2 k q := fun k => funext fun a => Fin.ext (by
    match a with
    | ⟨0, _⟩ => rfl
    | ⟨1, _⟩ => rfl)
  have el7 : ∀ k : Fin 1024, lidx_main_v7 (ix2 r q) k = ix2 r k := fun k => funext fun a => Fin.ext (by
    match a with
    | ⟨0, _⟩ => rfl
    | ⟨1, _⟩ => rfl)
  have er7 : ∀ k : Fin 1024, ridx_main_v7 (ix2 r q) k = ix2 k q := fun k => funext fun a => Fin.ext (by
    match a with
    | ⟨0, _⟩ => rfl
    | ⟨1, _⟩ => rfl)
  have eb : idx_main_v10 (idx_main_v11 (ix2 r q)) = ix1 q := funext fun a => Fin.ext (by
    match a with
    | ⟨0, _⟩ => rfl)
  rw [val_main_v12_apply, val_main_v8_apply, val_main_v5_apply, val_main_v7_apply, val_main_v11_apply, val_main_v10_apply]
  unfold preact
  simp only [el5, er5, el7, er7, eb, Ideal.addf_def]

/-! ## The four gates -/

theorem slice0 (r : Fin 8192) (j : Fin 1024) : idx_main_v13 (ix2 r j) = ix2 r (gateCol 0 j) :=
  funext fun a => Fin.ext (by
    match a with
    | ⟨0, _⟩ => rfl
    | ⟨1, _⟩ => show j.val = 1024 * 0 + j.val; omega)
theorem slice1 (r : Fin 8192) (j : Fin 1024) : idx_main_v14 (ix2 r j) = ix2 r (gateCol 1 j) :=
  funext fun a => Fin.ext (by
    match a with
    | ⟨0, _⟩ => rfl
    | ⟨1, _⟩ => show 1024 + j.val = 1024 * 1 + j.val; omega)
theorem slice2 (r : Fin 8192) (j : Fin 1024) : idx_main_v15 (ix2 r j) = ix2 r (gateCol 2 j) :=
  funext fun a => Fin.ext (by
    match a with
    | ⟨0, _⟩ => rfl
    | ⟨1, _⟩ => show 2048 + j.val = 1024 * 2 + j.val; omega)
theorem slice3 (r : Fin 8192) (j : Fin 1024) : idx_main_v16 (ix2 r j) = ix2 r (gateCol 3 j) :=
  funext fun a => Fin.ext (by
    match a with
    | ⟨0, _⟩ => rfl
    | ⟨1, _⟩ => show 3072 + j.val = 1024 * 3 + j.val; omega)

/-- The host's spelling of the sigmoid, with the constant 1.0, is the logistic function. -/
theorem sigmoid_host (z : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  simp only [Ideal.hostDivf_def, Ideal.addf_def, Ideal.hostUnary_exp_def, Ideal.hostNegf_def, Ideal.negf_def, Ideal.ofBits_def,
    Ideal.ofBits_one_f32]
  rfl

theorem inputGate_apply (r : Fin 8192) (j : Fin 1024) :
    val_main_v22 (F := Ideal) x0 x1 x3 x4 x5 x6 x7 x8 x9 x10 x11 x12 x13 x14 x15 x16 x17 x18 (ix2 r j)
      = Ideal.logistic (preact (n := 8192) x0 x1 (val_main_v4 (F := Ideal) x3 x5 x7 x9) (val_main_v6 (F := Ideal) x4 x6 x8 x10) (val_main_v9 (F := Ideal) x11 x12 x13 x14 x15 x16 x17 x18) r (gateCol 0 j)) := by
  rw [val_main_v22_apply, val_main_v21_apply, val_main_cst_0_apply, val_main_v20_apply, val_main_v19_apply, val_main_cst_apply,
    val_main_v18_apply, val_main_v17_apply, val_main_v13_apply, slice0, gates_apply]
  exact sigmoid_host _

theorem forgetGate_apply (r : Fin 8192) (j : Fin 1024) :
    val_main_v28 (F := Ideal) x0 x1 x3 x4 x5 x6 x7 x8 x9 x10 x11 x12 x13 x14 x15 x16 x17 x18 (ix2 r j)
      = Ideal.logistic (preact (n := 8192) x0 x1 (val_main_v4 (F := Ideal) x3 x5 x7 x9) (val_main_v6 (F := Ideal) x4 x6 x8 x10) (val_main_v9 (F := Ideal) x11 x12 x13 x14 x15 x16 x17 x18) r (gateCol 1 j)) := by
  rw [val_main_v28_apply, val_main_v27_apply, val_main_cst_2_apply, val_main_v26_apply, val_main_v25_apply, val_main_cst_1_apply,
    val_main_v24_apply, val_main_v23_apply, val_main_v14_apply, slice1, gates_apply]
  exact sigmoid_host _

theorem candidate_apply (r : Fin 8192) (j : Fin 1024) :
    val_main_v29 (F := Ideal) x0 x1 x3 x4 x5 x6 x7 x8 x9 x10 x11 x12 x13 x14 x15 x16 x17 x18 (ix2 r j)
      = Ideal.tanh (preact (n := 8192) x0 x1 (val_main_v4 (F := Ideal) x3 x5 x7 x9) (val_main_v6 (F := Ideal) x4 x6 x8 x10) (val_main_v9 (F := Ideal) x11 x12 x13 x14 x15 x16 x17 x18) r (gateCol 2 j)) := by
  rw [val_main_v29_apply, val_main_v15_apply, slice2, gates_apply]
  rfl

theorem outputGate_apply (r : Fin 8192) (j : Fin 1024) :
    val_main_v35 (F := Ideal) x0 x1 x3 x4 x5 x6 x7 x8 x9 x10 x11 x12 x13 x14 x15 x16 x17 x18 (ix2 r j)
      = Ideal.logistic (preact (n := 8192) x0 x1 (val_main_v4 (F := Ideal) x3 x5 x7 x9) (val_main_v6 (F := Ideal) x4 x6 x8 x10) (val_main_v9 (F := Ideal) x11 x12 x13 x14 x15 x16 x17 x18) r (gateCol 3 j)) := by
  rw [val_main_v35_apply, val_main_v34_apply, val_main_cst_4_apply, val_main_v33_apply, val_main_v32_apply, val_main_cst_3_apply,
    val_main_v31_apply, val_main_v30_apply, val_main_v16_apply, slice3, gates_apply]
  exact sigmoid_host _

/-! ## The two results -/

/-- The reference's new cell state is the specification's. -/
theorem cell_eq :
    val_main_v38 (F := Ideal) x0 x1 x2 x3 x4 x5 x6 x7 x8 x9 x10 x11 x12 x13 x14 x15 x16 x17 x18
      = newCell (n := 8192) x0 x1 x2 (val_main_v4 (F := Ideal) x3 x5 x7 x9) (val_main_v6 (F := Ideal) x4 x6 x8 x10) (val_main_v9 (F := Ideal) x11 x12 x13 x14 x15 x16 x17 x18) := by
  funext i
  obtain ⟨r, j, rfl⟩ : ∃ (r : Fin 8192) (j : Fin 1024), i = ix2 r j := ⟨i 0, i 1, eq_ix2 i⟩
  rw [newCell_apply, val_main_v38_apply, val_main_v36_apply, val_main_v37_apply, forgetGate_apply, inputGate_apply, candidate_apply]
  rfl

/-- The reference's new hidden state is the specification's. -/
theorem hidden_eq :
    val_main_v40 (F := Ideal) x0 x1 x2 x3 x4 x5 x6 x7 x8 x9 x10 x11 x12 x13 x14 x15 x16 x17 x18
      = newHidden (n := 8192) x0 x1 x2 (val_main_v4 (F := Ideal) x3 x5 x7 x9) (val_main_v6 (F := Ideal) x4 x6 x8 x10) (val_main_v9 (F := Ideal) x11 x12 x13 x14 x15 x16 x17 x18) := by
  funext i
  obtain ⟨r, j, rfl⟩ : ∃ (r : Fin 8192) (j : Fin 1024), i = ix2 r j := ⟨i 0, i 1, eq_ix2 i⟩
  rw [newHidden_apply, val_main_v40_apply, outputGate_apply, val_main_v39_apply, cell_eq, newCell_apply]
  rfl

end Cert.ReferenceIdeal.CellValue

end
-- ==== Proof.RefHost.lean ====
/-
  The reference's results over the shared weights and bias.

  The reference's stacked, transposed weight matrices and its summed stacked bias are, operation
  for operation, the ones stated once for both programs; so its two results are the
  specification's arrays of the arguments and of those.
-/
import proofs.«126319_j37099927503216_1_alg».proof.Proof.RefCell
import proofs.«126319_j37099927503216_1_alg».proof.Proof.CellHost

noncomputable section

namespace Cert.ReferenceIdeal.CellValue

open Cert.ReferenceIdeal Cert.ReferenceIdeal.Gen Cert.ReferenceIdeal.Read Cert.CellSpec
open Idealize.ShloMosaic Idealize.ShloMosaic.TcCoe Idealize.ShloMosaic.ValueIdx

variable (x0 x1 x2 : (⟨S8192x1024, .f32⟩ : BufTy).Contents (Elt Ideal))
  (x3 x4 x5 x6 x7 x8 x9 x10 : (⟨S1024x1024, .f32⟩ : BufTy).Contents (Elt Ideal))
  (x11 x12 x13 x14 x15 x16 x17 x18 : (⟨S1024, .f32⟩ : BufTy).Contents (Elt Ideal))

theorem wx_ref : val_main_v4 (F := Ideal) x3 x5 x7 x9 = stackedT x3 x5 x7 x9 := rfl
theorem wh_ref : val_main_v6 (F := Ideal) x4 x6 x8 x10 = stackedT x4 x6 x8 x10 := rfl
theorem b_ref : val_main_v9 (F := Ideal) x11 x12 x13 x14 x15 x16 x17 x18 = stackedBias x11 x12 x13 x14 x15 x16 x17 x18 := rfl

theorem hidden_spec :
    val_main_v40 (F := Ideal) x0 x1 x2 x3 x4 x5 x6 x7 x8 x9 x10 x11 x12 x13 x14 x15 x16 x17 x18
      = newHidden (n := 8192) x0 x1 x2 (stackedT x3 x5 x7 x9) (stackedT x4 x6 x8 x10) (stackedBias x11 x12 x13 x14 x15 x16 x17 x18) := by
  rw [hidden_eq, wx_ref, wh_ref, b_ref]

theorem cell_spec :
    val_main_v38 (F := Ideal) x0 x1 x2 x3 x4 x5 x6 x7 x8 x9 x10 x11 x12 x13 x14 x15 x16 x17 x18
      = newCell (n := 8192) x0 x1 x2 (stackedT x3 x5 x7 x9) (stackedT x4 x6 x8 x10) (stackedBias x11 x12 x13 x14 x15 x16 x17 x18) := by
  rw [cell_eq, wx_ref, wh_ref, b_ref]

/-- The same at arguments equal to other arrays: what meets a run from a memory that agrees with
    another on the arguments. -/
theorem hidden_of_agree (y0 y1 y2 : (⟨S8192x1024, .f32⟩ : BufTy).Contents (Elt Ideal))
  (y3 y4 y5 y6 y7 y8 y9 y10 : (⟨S1024x1024, .f32⟩ : BufTy).Contents (Elt Ideal))
  (y11 y12 y13 y14 y15 y16 y17 y18 : (⟨S1024, .f32⟩ : BufTy).Contents (Elt Ideal))
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) (e17 : x17 = y17) (e18 : x18 = y18) :
    val_main_v40 (F := Ideal) x0 x1 x2 x3 x4 x5 x6 x7 x8 x9 x10 x11 x12 x13 x14 x15 x16 x17 x18
      = newHidden (n := 8192) y0 y1 y2 (stackedT y3 y5 y7 y9) (stackedT y4 y6 y8 y10) (stackedBias y11 y12 y13 y14 y15 y16 y17 y18) := by
  subst e0 e1 e2 e3 e4 e5 e6 e7 e8 e9 e10 e11 e12 e13 e14 e15 e16 e17 e18
  exact hidden_spec x0 x1 x2 x3 x4 x5 x6 x7 x8 x9 x10 x11 x12 x13 x14 x15 x16 x17 x18

theorem cell_of_agree (y0 y1 y2 : (⟨S8192x1024, .f32⟩ : BufTy).Contents (Elt Ideal))
  (y3 y4 y5 y6 y7 y8 y9 y10 : (⟨S1024x1024, .f32⟩ : BufTy).Contents (Elt Ideal))
  (y11 y12 y13 y14 y15 y16 y17 y18 : (⟨S1024, .f32⟩ : BufTy).Contents (Elt Ideal))
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) (e17 : x17 = y17) (e18 : x18 = y18) :
    val_main_v38 (F := Ideal) x0 x1 x2 x3 x4 x5 x6 x7 x8 x9 x10 x11 x12 x13 x14 x15 x16 x17 x18
      = newCell (n := 8192) y0 y1 y2 (stackedT y3 y5 y7 y9) (stackedT y4 y6 y8 y10) (stackedBias y11 y12 y13 y14 y15 y16 y17 y18) := by
  subst e0 e1 e2 e3 e4 e5 e6 e7 e8 e9 e10 e11 e12 e13 e14 e15 e16 e17 e18
  exact cell_spec x0 x1 x2 x3 x4 x5 x6 x7 x8 x9 x10 x11 x12 x13 x14 x15 x16 x17 x18

end Cert.ReferenceIdeal.CellValue

end
-- ==== Proof.lean ====
/-
  The LSTM cell kernel against its jnp reference: the five claims.

  Both programs compute, for each of 8192 batch rows and 1024 hidden columns,

      z   = x W_x + h W_h + b                      (four gates side by side)
      c'  = sigmoid(z_f) c + sigmoid(z_i) tanh(z_g)
      h'  = sigmoid(z_o) tanh(c')

  over the same stacked, transposed weights and summed stacked bias, which both build with the
  same host operations.  The kernel walks the batch in 64 tiles of 128 rows, reads the weights
  through a narrower float format and spells the sigmoid as one operation; the reference computes
  whole arrays and spells the sigmoid 1 / (1 + exp(-z)).  On the extended reals a change of format
  is the identity, a tiled matrix product is the same sum over the 1024 contracted positions, and
  the two spellings of the sigmoid are one function; the three summands of z are grouped the same
  way in both.  So the two programs' results agree term by term, and nothing about the inputs'
  finiteness is needed.

  The frames: the kernel's program (at either float instance) runs its ten host operations and its
  one pipelined region to the end and leaves the nineteen arguments as launched; the reference
  is host operations only.  The idealization rewrote nothing, so there is nothing to preserve.
-/
import proofs.«126319_j37099927503216_1_alg».proof.Defs
import proofs.«126319_j37099927503216_1_alg».proof.Proof.Gen.Kernel
import proofs.«126319_j37099927503216_1_alg».proof.Proof.Gen.KernelIdeal
import proofs.«126319_j37099927503216_1_alg».proof.Proof.Gen.ReferenceIdeal
import proofs.«126319_j37099927503216_1_alg».proof.Proof.Gen.Pre_finite_inputs
import proofs.«126319_j37099927503216_1_alg».proof.Proof.BitsCellFrame
import proofs.«126319_j37099927503216_1_alg».proof.Proof.CellRun
import proofs.«126319_j37099927503216_1_alg».proof.Proof.RefHost
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Cell.frame m ρ

/-- So does the idealized one. -/
theorem frame_kernelIdeal : Cert.frame_KernelIdeal := fun m ρ _ => Cert.KernelIdeal.Cell.frame m ρ

/-- The reference is host operations only: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization applied no rewrite. -/
theorem preserves : Cert.preserves_Kernel_KernelIdeal := trivial

/-- From memories agreeing on the nineteen arguments both programs end with the new hidden state
    and the new cell state at the specification's arrays of those arguments. -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17, a18⟩ := hagree c
  refine ⟨(h c).1.trans ?_, (h c).2.1.trans ?_, (h c).2.2⟩
  · exact (Cert.ReferenceIdeal.Read.val_main_v40_eq m' c).trans
      (Cert.ReferenceIdeal.CellValue.hidden_of_agree _ _ _ _ _ _ _ _ _ _ _ _ _ _ _ _ _ _ _ _ _ _ _ _ _ _ _ _ _ _ _ _ _ _ _ _ _ _ a0 a1 a2 a3 a4 a5 a6 a7 a8 a9 a10 a11 a12 a13 a14 a15 a16 a17 a18)
  · exact (Cert.ReferenceIdeal.Read.val_main_v38_eq m' c).trans
      (Cert.ReferenceIdeal.CellValue.cell_of_agree _ _ _ _ _ _ _ _ _ _ _ _ _ _ _ _ _ _ _ _ _ _ _ _ _ _ _ _ _ _ _ _ _ _ _ _ _ _ a0 a1 a2 a3 a4 a5 a6 a7 a8 a9 a10 a11 a12 a13 a14 a15 a16 a17 a18)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
